-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S64x128 : Shape := ⟨2, ![64, 128]⟩
abbrev S64 : Shape := ⟨1, ![64]⟩
abbrev S4096x64 : Shape := ⟨2, ![4096, 64]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  main_v18

def fn {F : FTy → Type} [FloatOps F] (main_arg0 : FVec F S16384x128 .f32) (main_arg1 : FVec F S64x128 .f32) (main_arg2 : FVec F S64 .f32) (main_arg3 : FVec F S4096x64 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4096x64 .f32 := Host.absf main_arg3
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_v13 main_v16
-- ==== Kernel.lean ====
abbrev S16384x128 : Shape := ⟨2, ![16384, 128]⟩
abbrev S64x128 : Shape := ⟨2, ![64, 128]⟩
abbrev S64 : Shape := ⟨1, ![64]⟩
abbrev S4096x64 : Shape := ⟨2, ![4096, 64]⟩
abbrev S128x64 : Shape := ⟨2, ![128, 64]⟩
abbrev S1x64 : Shape := ⟨2, ![1, 64]⟩
abbrev S512x128 : Shape := ⟨2, ![512, 128]⟩
abbrev S512x64 : Shape := ⟨2, ![512, 64]⟩
abbrev S512x4096 : Shape := ⟨2, ![512, 4096]⟩
abbrev S512 : Shape := ⟨1, ![512]⟩
abbrev S512x1 : Shape := ⟨2, ![512, 1]⟩
abbrev S4096 : Shape := ⟨1, ![4096]⟩
abbrev S1x4096 : Shape := ⟨2, ![1, 4096]⟩

abbrev nBuf : Space → Nat
  | .hbm => 7
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S64x128, .f32⟩
  | .hbm, ⟨2, _⟩ => ⟨S64, .f32⟩
  | .hbm, ⟨3, _⟩ => ⟨S4096x64, .f32⟩
  | .hbm, ⟨4, _⟩ => ⟨S128x64, .f32⟩
  | .hbm, ⟨5, _⟩ => ⟨S1x64, .f32⟩
  | .hbm, ⟨6, _⟩ => ⟨S16384x128, .f32⟩
  | .local _ .vmem, ⟨0, _⟩ => ⟨S512x128, .f32⟩
  | .local _ .vmem, ⟨1, _⟩ => ⟨S512x128, .f32⟩
  | .local _ .vmem, ⟨2, _⟩ => ⟨S128x64, .f32⟩
  | .local _ .vmem, ⟨3, _⟩ => ⟨S1x64, .f32⟩
  | .local _ .vmem, ⟨4, _⟩ => ⟨S4096x64, .f32⟩
  | .local _ .vmem, ⟨5, _⟩ => ⟨S512x128, .f32⟩
  | .local _ .vmem, ⟨6, _⟩ => ⟨S512x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S64x128_S128x64_1_0 : S64x128.Transposes [1, 0] S128x64
  shapeCasts_S64_S1x64 : S64.ShapeCasts S1x64
  inb_S512x128_S512x128_0_0 : ∀ a, (![0, 0] : Fin 2 → Nat) a + S512x128.size a ≤ S512x128.size a
  h_S512x128 : 0 < S512x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S4096x64_S4096x64_0_0 : ∀ a, (![0, 0] : Fin 2 → Nat) a + S4096x64.size a ≤ S4096x64.size a
  h_S4096x64 : 0 < S4096x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  reduces_S512x64_S512 : S512x64.Reduces [1] S512
  shapeCasts_S512_S512x1 : S512.ShapeCasts S512x1
  reduces_S4096x64_S4096 : S4096x64.Reduces [1] S4096
  shapeCasts_S4096_S1x4096 : S4096.ShapeCasts S1x4096
  broadcasts_S512x1_S512x4096 : S512x1.Broadcasts S512x4096
  broadcasts_S1x4096_S512x4096 : S1x4096.Broadcasts S512x4096
  reduces_S512x4096_S512 : S512x4096.Reduces [1] S512
  inb_S512x128_S512x64_0_0 : ∀ a, (![0, 0] : Fin 2 → Nat) a + S512x64.size a ≤ S512x128.size a
  h_S512x64 : 0 < S512x64.numel
  inb_S512x128_S512x64_0_64 : ∀ a, (![0, 64] : Fin 2 → Nat) a + S512x64.size a ≤ S512x128.size a
  dot_S512x128_S128x64_S512x64_1_0_0_1_n_n_wf : DotDims.WF S512x128 S128x64 S512x64 [1] [0] [0] [1] [] []
  dot_S512x64_S4096x64_S512x4096_1_1_0_0_n_n_wf : DotDims.WF S512x64 S4096x64 S512x4096 [1] [1] [0] [0] [] []
  dot_S512x4096_S4096x64_S512x64_1_0_0_1_n_n_wf : DotDims.WF S512x4096 S4096x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .f32 = 32 ∨ (Rect.block (s := S16384x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .f32 = 32 ∨ (Rect.block (s := S4096x64) S4096x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S16384x128.size a
  hwx0_4 : ∀ i : grid0.Coords, EltTy.bits .f32 = 32 ∨ (Rect.block (s := S16384x128) S512x128.size (cc0_transform_4 i) (hinb0_4 i)).WholeWords (EltTy.packing .f32)

variable [Facts₀]

def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S4096x64_S512x4096_1_1_0_0_n_n : DotDims S512x64 S4096x64 S512x4096 where
  lhsContracting := [1]
  rhsContracting := [1]
  lhsNonContracting := [0]
  rhsNonContracting := [0]
  lhsBatch := []
  rhsBatch := []
  wf := dot_S512x64_S4096x64_S512x4096_1_1_0_0_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x128 : Shape := ⟨2, ![16384, 128]⟩
abbrev S64x128 : Shape := ⟨2, ![64, 128]⟩
abbrev S64 : Shape := ⟨1, ![64]⟩
abbrev S4096x64 : Shape := ⟨2, ![4096, 64]⟩
abbrev S128x64 : Shape := ⟨2, ![128, 64]⟩
abbrev S16384x64 : Shape := ⟨2, ![16384, 64]⟩
abbrev S1x64 : Shape := ⟨2, ![1, 64]⟩
abbrev S_ : Shape := ⟨0, ![]⟩
abbrev S64x4096 : Shape := ⟨2, ![64, 4096]⟩
abbrev S16384x4096 : Shape := ⟨2, ![16384, 4096]⟩
abbrev S16384 : Shape := ⟨1, ![16384]⟩
abbrev S16384x1 : Shape := ⟨2, ![16384, 1]⟩
abbrev S4096 : Shape := ⟨1, ![4096]⟩
abbrev S4096x1 : Shape := ⟨2, ![4096, 1]⟩
abbrev S1x4096 : Shape := ⟨2, ![1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S64x128, .f32⟩
  | .hbm, ⟨2, _⟩ => ⟨S64, .f32⟩
  | .hbm, ⟨3, _⟩ => ⟨S4096x64, .f32⟩
  | .hbm, ⟨4, _⟩ => ⟨S128x64, .f32⟩
  | .hbm, ⟨5, _⟩ => ⟨S16384x64, .f32⟩
  | .hbm, ⟨6, _⟩ => ⟨S1x64, .f32⟩
  | .hbm, ⟨7, _⟩ => ⟨S16384x64, .f32⟩
  | .hbm, ⟨8, _⟩ => ⟨S16384x64, .f32⟩
  | .hbm, ⟨9, _⟩ => ⟨S_, .f32⟩
  | .hbm, ⟨10, _⟩ => ⟨S16384x64, .f32⟩
  | .hbm, ⟨11, _⟩ => ⟨S16384x64, .i1⟩
  | .hbm, ⟨12, _⟩ => ⟨S_, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S64x4096, .f32⟩
  | .hbm, ⟨17, _⟩ => ⟨S16384x4096, .f32⟩
  | .hbm, ⟨18, _⟩ => ⟨S16384x64, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S16384x1, .f32⟩
  | .hbm, ⟨23, _⟩ => ⟨S4096x64, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S1x4096, .f32⟩
  | .hbm, ⟨29, _⟩ => ⟨S16384x4096, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S_, .f32⟩
  | .hbm, ⟨35, _⟩ => ⟨S16384, .f32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S16384x1, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S16384x4096, .f32⟩
  | .hbm, ⟨47, _⟩ => ⟨S16384x4096, .f32⟩
  | .hbm, ⟨48, _⟩ => ⟨S16384x64, .f32⟩
  | .hbm, ⟨49, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  transposes_S4096x64_S64x4096_1_0 : S4096x64.Transposes [1, 0] S64x4096
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S4096x64_S4096_d1 : S4096x64.ReducesTo [1] S4096
  bcast_S4096_S4096x1_0 : S4096.BroadcastsInDim S4096x1 (![0] : Fin 1 → Fin S4096x1.rank)
  transposes_S4096x1_S1x4096_1_0 : S4096x1.Transposes [1, 0] S1x4096
  bcast_S_S16384x4096 : S_.BroadcastsInDim S16384x4096 (![] : Fin 0 → Fin S16384x4096.rank)
  reducesTo_S16384x4096_S16384_d1 : S16384x4096.ReducesTo [1] S16384
  bcast_S_S16384 : S_.BroadcastsInDim S16384 (![] : Fin 0 → Fin S16384.rank)
  bcast_S16384x1_S16384x4096_0_1 : S16384x1.BroadcastsInDim S16384x4096 (![0, 1] : Fin 2 → Fin S16384x4096.rank)
  concatenates_S16384x64_S16384x64_S16384x128_d1 : Shape.Concatenates [S16384x64, S16384x64] S16384x128 1
  dot_S16384x128_S128x64_S16384x64_1_0_0_1_n_n_wf : DotDims.WF S16384x128 S128x64 S16384x64 [1] [0] [0] [1] [] []
  dot_S16384x64_S64x4096_S16384x4096_1_0_0_1_n_n_wf : DotDims.WF S16384x64 S64x4096 S16384x4096 [1] [0] [0] [1] [] []
  dot_S16384x1_S1x4096_S16384x4096_1_0_0_1_n_n_wf : DotDims.WF S16384x1 S1x4096 S16384x4096 [1] [0] [0] [1] [] []
  dot_S16384x4096_S4096x64_S16384x64_1_0_0_1_n_n_wf : DotDims.WF S16384x4096 S4096x64 S16384x64 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x1_S1x4096_S16384x4096_1_0_0_1_n_n : DotDims S16384x1 S1x4096 S16384x4096 where
  lhsContracting := [1]
  rhsContracting := [0]
  lhsNonContracting := [0]
  rhsNonContracting := [1]
  lhsBatch := []
  rhsBatch := []
  wf := dot_S16384x1_S1x4096_S16384x4096_1_0_0_1_n_n_wf
def dot_S16384x4096_S4096x64_S16384x64_1_0_0_1_n_n : DotDims S16384x4096 S4096x64 S16384x64 where
  lhsContracting := [1]
  rhsContracting := [0]
  lhsNonContracting := [0]
  rhsNonContracting := [1]
  lhsBatch := []
  rhsBatch := []
  wf := dot_S16384x4096_S4096x64_S16384x64_1_0_0_1_n_n_wf

class Facts : Prop extends Facts₀ where

variable [Facts]
-- ==== Proof.Spec.lean ====
/-
  The memory read head, row by row, over the extended reals.

  One input row x (128 entries), the controller's weights w (64 x 128) and bias b (64) give the hidden row
  h j = leaky (sum_k x k * w j k + b j); against every memory row M r (4096 rows of 64 entries) the cosine
  similarity is (sum_j h j * M r j) / (|h| * |M r| + eps); the weights are the softmax of the similarities
  taken from their running maximum; the read row is sum_r weight r * M r j. The output row of 128 entries is
  the hidden row followed by the read row. Every literal stays the binary word both programs print.
-/
import Idealize.ShloMosaic.PureOps.Ideal
import Idealize.ShloMosaic.Lib.ValueIdx

noncomputable section

namespace Cert.ReadHead

open Idealize.ShloMosaic

/-- The controller's pre-activation at hidden unit j: the row against weight row j, plus the bias. -/
def lin (x : Fin 128 → EReal) (w : Fin 64 → Fin 128 → EReal) (b : Fin 64 → EReal) (j : Fin 64) : EReal :=
  (∑ k : Fin 128, x k * w j k) + b j

/-- LeakyReLU: the value itself where it is at least zero, else the slope word times it. -/
def leaky (a : EReal) : EReal :=
  Scalar.select (Ideal.cmp .oge a (Ideal.ofBits .f32 0x00000000#32)) a (Ideal.ofBits .f32 0x3C23D70A#32 * a)

/-- The hidden row. -/
def hid (x : Fin 128 → EReal) (w : Fin 64 → Fin 128 → EReal) (b : Fin 64 → EReal) (j : Fin 64) : EReal :=
  leaky (lin x w b j)

/-- The Euclidean norm of a row of 64 entries. -/
def norm (v : Fin 64 → EReal) : EReal := Ideal.sqrt (∑ j : Fin 64, v j * v j)

/-- The cosine similarity of the hidden row with memory row r, the norms' product offset by the epsilon word. -/
def coss (h : Fin 64 → EReal) (M : Fin 4096 → Fin 64 → EReal) (r : Fin 4096) : EReal :=
  Ideal.div (∑ j : Fin 64, h j * M r j) (norm h * norm (M r) + Ideal.ofBits .f32 0x322BCC77#32)

/-- The maximum of 4096 entries, folded from the word of minus infinity. -/
def rowMax (c : Fin 4096 → EReal) : EReal :=
  (Finset.univ : Finset (Fin 4096)).fold max (Ideal.ofBits .f32 0xFF800000#32) c

/-- The exponential of an entry's distance below the row's maximum. -/
def ex (c : Fin 4096 → EReal) (r : Fin 4096) : EReal := Ideal.exp (c r - rowMax c)

/-- The softmax weight of entry r. -/
def wgt (c : Fin 4096 → EReal) (r : Fin 4096) : EReal := Ideal.div (ex c r) (∑ r' : Fin 4096, ex c r')

/-- The read row: the memory rows weighted by the softmax of the similarities. -/
def read (h : Fin 64 → EReal) (M : Fin 4096 → Fin 64 → EReal) (j : Fin 64) : EReal :=
  ∑ r : Fin 4096, wgt (coss h M) r * M r j

/-- The output row: the hidden row in columns 0 to 63, the read row in columns 64 to 127. -/
def outRow (x : Fin 128 → EReal) (w : Fin 64 → Fin 128 → EReal) (b : Fin 64 → EReal) (M : Fin 4096 → Fin 64 → EReal)
    (c : Fin 128) : EReal :=
  if hc : c.val < 64 then hid x w b ⟨c.val, hc⟩ else read (hid x w b) M ⟨c.val - 64, by have := c.isLt; omega⟩

/-- A column of the first half reads the hidden row. -/
theorem outRow_lt (x : Fin 128 → EReal) (w : Fin 64 → Fin 128 → EReal) (b : Fin 64 → EReal) (M : Fin 4096 → Fin 64 → EReal)
    (c : Fin 128) (q : Fin 64) (h : c.val = q.val) : outRow x w b M c = hid x w b q := by
  unfold outRow
  rw [dif_pos (show c.val < 64 by have := q.isLt; omega)]
  exact congrArg (hid x w b) (Fin.ext h)

/-- A column of the second half reads the read row, 64 columns back. -/
theorem outRow_ge (x : Fin 128 → EReal) (w : Fin 64 → Fin 128 → EReal) (b : Fin 64 → EReal) (M : Fin 4096 → Fin 64 → EReal)
    (c : Fin 128) (q : Fin 64) (h : c.val = 64 + q.val) : outRow x w b M c = read (hid x w b) M q := by
  unfold outRow
  rw [dif_neg (show ¬ c.val < 64 by omega)]
  exact congrArg (read (hid x w b) M) (Fin.ext (show c.val - 64 = q.val by omega))

open ValueIdx in
/-- The whole result as ONE function of the four argument arrays, index by index. -/
def G (X : (⟨2, ![16384, 128]⟩ : Shape).Idx → EReal) (W : (⟨2, ![64, 128]⟩ : Shape).Idx → EReal)
    (b : (⟨1, ![64]⟩ : Shape).Idx → EReal) (M : (⟨2, ![4096, 64]⟩ : Shape).Idx → EReal) :
    (⟨2, ![16384, 128]⟩ : Shape).Idx → EReal :=
  fun i => outRow (fun k => X (ix2 (⟨(i 0).val, idx2_lt0 i⟩ : Fin 16384) k)) (fun j k => W (ix2 j k)) (fun j => b (ix1 j))
    (fun r j => M (ix2 r j)) ⟨(i 1).val, idx2_lt1 i⟩

/-- The word of minus infinity is the bottom of the extended reals, so a maximum with it changes nothing. -/
theorem max_negInf (y : EReal) : max (Ideal.ofBits .f32 0xFF800000#32) y = y := by
  simp [Ideal.ofBits, Ideal.ieee]

end Cert.ReadHead

end
-- ==== Proof.RefValue.lean ====
/-
  The reference program computes the memory read head.

  Each stage of the reference is read at an index written by its coordinates. The pre-activation at (i, q) is row i
  of the input against weight row q, plus the bias; the hidden row is its LeakyReLU. The two norms are square roots
  of sums of squares, the zero word the sums start from being zero. The similarity of row i with memory row r is
  their inner product over the norms' product offset by the epsilon word. The row maximum is the fold of `max` over
  the 4096 similarities from minus infinity, and a further maximum with minus infinity changes nothing. The weights
  are the exponentials of the distances below the maximum over their sum, the read row is the memory rows weighted
  by them, and the result joins the hidden row (columns 0 to 63) and the read row (columns 64 to 127).
-/
import proofs.«160663_g89713276879474_cont_9to1c4b_863_2_alg».proof.Proof.RefRead
import proofs.«160663_g89713276879474_cont_9to1c4b_863_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Gen
  Cert.ReferenceIdeal.ReadP

/-! ## The index functions of the layout stages, at an index built from coordinates -/

/-- The input's index under the first contraction: row i, column k. -/
theorem lidx_v1 (i : Fin 16384) (q : Fin 64) (k : Fin 128) : lidx_main_v1 (ix2 i q) k = ix2 i k :=
  funext fun a => Fin.ext (by match a with | ⟨0, _⟩ => rfl | ⟨1, _⟩ => rfl)
/-- The weights' index under the first contraction, through the transpose: row q, column k. -/
theorem ridx_v1 (i : Fin 16384) (q : Fin 64) (k : Fin 128) :
    idx_main_v0 (ridx_main_v1 (ix2 i q) k) = ix2 q k :=
  funext fun a => Fin.ext (by match a with | ⟨0, _⟩ => rfl | ⟨1, _⟩ => rfl)
/-- The bias's index under its two broadcasts: entry q. -/
theorem idx_v3 (i : Fin 16384) (q : Fin 64) : idx_main_v2 (idx_main_v3 (ix2 i q)) = ix1 q :=
  funext fun a => Fin.ext (by match a with | ⟨0, _⟩ => rfl)
/-- The hidden row's index under its sum of squares, through the column broadcast: row i, column k. -/
theorem idx_v13 (i : Fin 16384) (z : Fin 1) (k : Fin 64) :
    idx_main_v13 (idx_main_v14 (ix2 i z)) k = ix2 i k :=
  funext fun a => Fin.ext (by match a with | ⟨0, _⟩ => rfl | ⟨1, _⟩ => rfl)
/-- The memory's index under its sum of squares, through the column broadcast: row r, column k. -/
theorem idx_v17 (r : Fin 4096) (z : Fin 1) (k : Fin 64) :
    idx_main_v17 (idx_main_v18 (ix2 r z)) k = ix2 r k :=
  funext fun a => Fin.ext (by match a with | ⟨0, _⟩ => rfl | ⟨1, _⟩ => rfl)
/-- The hidden row's index under the contraction with the memory: row i, column k. -/
theorem lidx_v11 (i : Fin 16384) (r : Fin 4096) (k : Fin 64) : lidx_main_v11 (ix2 i r) k = ix2 i k :=
  funext fun a => Fin.ext (by match a with | ⟨0, _⟩ => rfl | ⟨1, _⟩ => rfl)
/-- The memory's index under that contraction, through the transpose: row r, column k. -/
theorem ridx_v11 (i : Fin 16384) (r : Fin 4096) (k : Fin 64) :
    idx_main_v10 (ridx_main_v11 (ix2 i r) k) = ix2 r k :=
  funext fun a => Fin.ext (by match a with | ⟨0, _⟩ => rfl | ⟨1, _⟩ => rfl)
/-- The hidden norm's index under the one-term contraction: row i. -/
theorem lidx_v21 (i : Fin 16384) (r : Fin 4096) (z : Fin 1) : lidx_main_v21 (ix2 i r) z = ix2 i z :=
  funext fun a => Fin.ext (by match a with | ⟨0, _⟩ => rfl | ⟨1, _⟩ => rfl)
/-- The memory norm's index under the one-term contraction, through the transpose: row r. -/
theorem ridx_v21 (i : Fin 16384) (r : Fin 4096) (z : Fin 1) :
    idx_main_v20 (ridx_main_v21 (ix2 i r) z) = ix2 r z :=
  funext fun a => Fin.ext (by match a with | ⟨0, _⟩ => rfl | ⟨1, _⟩ => rfl)
/-- The row maximum's index under its two broadcasts: row i. -/
theorem idx_v28 (i : Fin 16384) (r : Fin 4096) : idx_main_v28 (idx_main_v29 (ix2 i r)) = ix1 i :=
  funext fun a => Fin.ext (by match a with | ⟨0, _⟩ => rfl)
/-- The exponentials' index under their sum: row i, column k. -/
theorem idx_v32 (i : Fin 16384) (k : Fin 4096) : idx_main_v32 (ix1 i) k = ix2 i k :=
  funext fun a => Fin.ext (by match a with | ⟨0, _⟩ => rfl | ⟨1, _⟩ => rfl)
/-- The sum's index under its two broadcasts: row i. -/
theorem idx_v33 (i : Fin 16384) (r : Fin 4096) : idx_main_v33 (idx_main_v34 (ix2 i r)) = ix1 i :=
  funext fun a => Fin.ext (by match a with | ⟨0, _⟩ => rfl)
/-- The weights' index under the last contraction: row i, column k. -/
theorem lidx_v36 (i : Fin 16384) (q : Fin 64) (k : Fin 4096) : lidx_main_v36 (ix2 i q) k = ix2 i k :=
  funext fun a => Fin.ext (by match a with | ⟨0, _⟩ => rfl | ⟨1, _⟩ => rfl)
/-- The memory's index under the last contraction: row k, column q. -/
theorem ridx_v36 (i : Fin 16384) (q : Fin 64) (k : Fin 4096) : ridx_main_v36 (ix2 i q) k = ix2 k q :=
  funext fun a => Fin.ext (by match a with | ⟨0, _⟩ => rfl | ⟨1, _⟩ => rfl)

/-! ## A maximum over the columns, read at a row -/

/-- The reduced index `i` with column `k` put back is (i, k). -/
theorem lift_row (h : S16384x4096.Reduces [1] S16384) (i : Fin 16384) (k : Fin (S16384x4096.size 1)) :
    h.lift (ix1 i) k = ix2 i (⟨k.val, k.isLt⟩ : Fin 4096) := by
  funext c; apply Fin.ext
  match c with
  | ⟨0, _⟩ => rfl
  | ⟨1, _⟩ => rfl

/-- A maximum-reduce over the columns, read at row `i`: the fold of `max` over the row from the initial value. -/
theorem reduce_max_row (x : FVec Ideal S16384x4096 .f32) (init : FVec Ideal S_ .f32)
    (h' : S16384x4096.ReducesTo [1] S16384) (hu : 0 < S_.numel) (i : Fin 16384) :
    Host.reduce FloatOps.maximumf x init h' hu (ix1 i)
      = (Finset.univ : Finset (Fin 4096)).fold max (init (Shape.Idx.first hu)) (fun r => x (ix2 i r)) := by
  have h : S16384x4096.Reduces [1] S16384 := by decide
  rw [Host.reduce_eq_fold_single FloatOps.maximumf x init h' h hu]
  have hf : (x ∘ h.lift (ix1 i)) = fun r : Fin 4096 => x (ix2 i r) :=
    funext fun k => congrArg x (lift_row h i k)
  exact congrArg (fun f => Finset.fold max (init (Shape.Idx.first hu)) f (Finset.univ : Finset (Fin 4096))) hf

/-! ## The stages -/

variable (X : FVec Ideal S16384x128 .f32) (W : FVec Ideal S64x128 .f32) (b : FVec Ideal S64 .f32)
  (M : FVec Ideal S4096x64 .f32)

/-- The pre-activation at (i, q): row i against weight row q, plus the bias. -/
theorem lin_ref (i : Fin 16384) (q : Fin 64) :
    val_main_v4 (F := Ideal) X W b (ix2 i q)
      = Cert.ReadHead.lin (fun k => X (ix2 i k)) (fun j k => W (ix2 j k)) (fun j => b (ix1 j)) q := by
  rw [val_main_v4_apply, val_main_v1_apply, val_main_v3_apply, val_main_v2_apply, idx_v3 i q, Ideal.addf_def]
  unfold Cert.ReadHead.lin
  refine congrArg (· + b (ix1 q)) (Finset.sum_congr rfl fun k _ => ?_)
  rw [val_main_v0_apply, lidx_v1 i q k, ridx_v1 i q k]

/-- The hidden row at (i, q): the LeakyReLU of the pre-activation. -/
theorem hid_ref (i : Fin 16384) (q : Fin 64) :
    val_main_v9 (F := Ideal) X W b (ix2 i q)
      = Cert.ReadHead.hid (fun k => X (ix2 i k)) (fun j k => W (ix2 j k)) (fun j => b (ix1 j)) q := by
  rw [val_main_v9_apply, val_main_v6_apply, val_main_v8_apply, val_main_v5_apply, val_main_v7_apply,
    val_main_cst_apply, val_main_cst_0_apply, lin_ref]
  rfl

/-- The hidden row's norm. -/
theorem hnorm_ref (i : Fin 16384) (z : Fin 1) :
    val_main_v15 (F := Ideal) X W b (ix2 i z) = Cert.ReadHead.norm (Cert.ReadHead.hid (fun k => X (ix2 i k)) (fun j k => W (ix2 j k)) (fun j => b (ix1 j))) := by
  rw [val_main_v15_apply, val_main_v14_apply, val_main_v13_apply, val_main_cst_1_apply, Ideal.hostUnary_sqrt_def,
    Ideal.ofBits_def, Ideal.ofBits_zero_f32, zero_add]
  unfold Cert.ReadHead.norm
  refine congrArg Ideal.sqrt (Finset.sum_congr rfl fun k _ => ?_)
  rw [val_main_v12_apply, idx_v13 i z k, hid_ref, Ideal.mulf_def]

/-- A memory row's norm. -/
theorem mnorm_ref (r : Fin 4096) (z : Fin 1) :
    val_main_v19 (F := Ideal) M (ix2 r z) = Cert.ReadHead.norm (fun j => M (ix2 r j)) := by
  rw [val_main_v19_apply, val_main_v18_apply, val_main_v17_apply, val_main_cst_2_apply, Ideal.hostUnary_sqrt_def,
    Ideal.ofBits_def, Ideal.ofBits_zero_f32, zero_add]
  unfold Cert.ReadHead.norm
  refine congrArg Ideal.sqrt (Finset.sum_congr rfl fun k _ => ?_)
  rw [val_main_v16_apply, idx_v17 r z k, Ideal.mulf_def]

/-- The norms' product at (i, r): a contraction of one term. -/
theorem nprod_ref (i : Fin 16384) (r : Fin 4096) :
    val_main_v21 (F := Ideal) X W b M (ix2 i r)
      = Cert.ReadHead.norm (Cert.ReadHead.hid (fun k => X (ix2 i k)) (fun j k => W (ix2 j k)) (fun j => b (ix1 j))) * Cert.ReadHead.norm (fun j => M (ix2 r j)) := by
  rw [val_main_v21_apply, Fin.sum_univ_one, val_main_v20_apply, lidx_v21 i r 0, ridx_v21 i r 0, hnorm_ref,
    mnorm_ref]

/-- The inner product of hidden row i with memory row r. -/
theorem dot_ref (i : Fin 16384) (r : Fin 4096) :
    val_main_v11 (F := Ideal) X W b M (ix2 i r)
      = ∑ j : Fin 64, (Cert.ReadHead.hid (fun k => X (ix2 i k)) (fun j k => W (ix2 j k)) (fun j => b (ix1 j))) j * M (ix2 r j) := by
  rw [val_main_v11_apply]
  refine Finset.sum_congr rfl fun k _ => ?_
  rw [val_main_v10_apply, lidx_v11 i r k, ridx_v11 i r k, hid_ref]

/-- The cosine similarity of hidden row i with memory row r. -/
theorem coss_ref (i : Fin 16384) (r : Fin 4096) :
    val_main_v24 (F := Ideal) X W b M (ix2 i r) = Cert.ReadHead.coss (Cert.ReadHead.hid (fun k => X (ix2 i k)) (fun j k => W (ix2 j k)) (fun j => b (ix1 j))) (fun r j => M (ix2 r j)) r := by
  rw [val_main_v24_apply, val_main_v23_apply, val_main_v22_apply, val_main_cst_3_apply, dot_ref, nprod_ref]
  rfl

/-- The maximum of row i's similarities. -/
theorem rowMax_ref (i : Fin 16384) :
    val_main_v27 (F := Ideal) X W b M (ix1 i) = Cert.ReadHead.rowMax (Cert.ReadHead.coss (Cert.ReadHead.hid (fun k => X (ix2 i k)) (fun j k => W (ix2 j k)) (fun j => b (ix1 j))) (fun r j => M (ix2 r j))) := by
  rw [val_main_v27_apply, val_main_v26_apply, val_main_cst_5_apply, Ideal.maximumf_def, Ideal.ofBits_def,
    Cert.ReadHead.max_negInf]
  unfold val_main_v25 Cert.ReadHead.rowMax
  refine (reduce_max_row _ _ _ _ i).trans ?_
  rw [val_main_cst_4_apply, Ideal.ofBits_def]
  exact congrArg (fun f => Finset.fold max (Ideal.ofBits .f32 0xFF800000#32) f (Finset.univ : Finset (Fin 4096)))
    (funext fun r => coss_ref X W b M i r)

/-- The exponential of a similarity's distance below its row's maximum. -/
theorem ex_ref (i : Fin 16384) (r : Fin 4096) :
    val_main_v31 (F := Ideal) X W b M (ix2 i r) = Cert.ReadHead.ex (Cert.ReadHead.coss (Cert.ReadHead.hid (fun k => X (ix2 i k)) (fun j k => W (ix2 j k)) (fun j => b (ix1 j))) (fun r j => M (ix2 r j))) r := by
  rw [val_main_v31_apply, val_main_v30_apply, val_main_v29_apply, val_main_v28_apply, idx_v28 i r, rowMax_ref,
    coss_ref]
  rfl

/-- The sum of row i's exponentials. -/
theorem exsum_ref (i : Fin 16384) :
    val_main_v32 (F := Ideal) X W b M (ix1 i) = ∑ r : Fin 4096, Cert.ReadHead.ex (Cert.ReadHead.coss (Cert.ReadHead.hid (fun k => X (ix2 i k)) (fun j k => W (ix2 j k)) (fun j => b (ix1 j))) (fun r j => M (ix2 r j))) r := by
  rw [val_main_v32_apply, val_main_cst_6_apply, Ideal.ofBits_def, Ideal.ofBits_zero_f32, zero_add]
  refine Finset.sum_congr rfl fun k _ => ?_
  rw [idx_v32 i k, ex_ref]

/-- The softmax weight of memory row r for row i. -/
theorem wgt_ref (i : Fin 16384) (r : Fin 4096) :
    val_main_v35 (F := Ideal) X W b M (ix2 i r) = Cert.ReadHead.wgt (Cert.ReadHead.coss (Cert.ReadHead.hid (fun k => X (ix2 i k)) (fun j k => W (ix2 j k)) (fun j => b (ix1 j))) (fun r j => M (ix2 r j))) r := by
  rw [val_main_v35_apply, val_main_v34_apply, val_main_v33_apply, idx_v33 i r, exsum_ref, ex_ref]
  rfl

/-- The read row at (i, q): the memory's column q weighted by row i's softmax. -/
theorem read_ref (i : Fin 16384) (q : Fin 64) :
    val_main_v36 (F := Ideal) X W b M (ix2 i q)
      = Cert.ReadHead.read (Cert.ReadHead.hid (fun k => X (ix2 i k)) (fun j k => W (ix2 j k)) (fun j => b (ix1 j)))
          (fun r j => M (ix2 r j)) q := by
  rw [val_main_v36_apply]
  unfold Cert.ReadHead.read
  refine Finset.sum_congr rfl fun k _ => ?_
  rw [lidx_v36 i q k, ridx_v36 i q k, wgt_ref]

/-- The reference's result is the read head: the hidden row joined with the read row. -/
theorem result_ref : val_main_v37 (F := Ideal) X W b M = Cert.ReadHead.G X W b M := by
  funext j
  obtain ⟨p, c, rfl⟩ : ∃ (p : Fin 16384) (c : Fin 128), j = ix2 p c := ⟨j 0, j 1, eq_ix2 j⟩
  show _ = Cert.ReadHead.outRow (fun k => X (ix2 p k)) (fun j k => W (ix2 j k)) (fun j => b (ix1 j))
    (fun r j => M (ix2 r j)) c
  unfold val_main_v37 Cert.ReadHead.outRow
  by_cases hc : c.val < 64
  · rw [dif_pos hc]
    refine (concatenate_pair_apply_left _ _ _ concatenates_S16384x64_S16384x64_S16384x128_d1 (ix2 p c) rfl
      (ix2 p (⟨c.val, hc⟩ : Fin 64)) ?_).trans (hid_ref X W b p ⟨c.val, hc⟩)
    intro a
    match a with
    | ⟨0, _⟩ => rfl
    | ⟨1, _⟩ => rfl
  · rw [dif_neg hc]
    have hlt : c.val - 64 < 64 := by have := c.isLt; omega
    refine (concatenate_pair_apply_right _ _ _ concatenates_S16384x64_S16384x64_S16384x128_d1 (ix2 p c) rfl rfl
      (ix2 p (⟨c.val - 64, hlt⟩ : Fin 64)) ?_ ?_).trans (read_ref X W b M p ⟨c.val - 64, hlt⟩)
    · intro a ha
      match a, ha with
      | ⟨0, _⟩, _ => rfl
      | ⟨1, _⟩, ha => exact absurd rfl ha
    · show (c.val - 64) + 64 = c.val
      omega

end Cert.ReferenceIdeal.RefValue

end
-- ==== Proof.LibColumn.lean ====
/-
  The keepdims column forms of a vector: a length-a vector viewed as an a x 1 column, and an a x 1 column
  repeated across b columns, each read at an index. (The row forms, 1 x b, are in the library.)
-/
import Idealize.ShloMosaic.Lib.Pipeline.Value
import Idealize.ShloMosaic.Lib.ValueIdx

namespace Cert.LibColumn

open Idealize.ShloMosaic Idealize.ShloMosaic.ValueIdx

variable {α : Type}

/-- A length-a vector cast to an a x 1 column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An a x 1 column broadcast to a x b reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn
-- ==== Proof.KernelOps.lean ====
/-
  The vector operations of the kernel's body, each read at one index of a 512-row block.

  The three matrix products become plain sums over the contracted coordinate: rows of the input block against
  the columns of the transposed weights (128 terms), hidden rows against memory rows (64 terms, both operands
  contracted on their second axis), softmax weights against memory columns (4096 terms). A sum or a maximum along
  a row, kept as a column and repeated across the row again, is the sum or the fold of max over that row.
-/
import proofs.«160663_g89713276879474_cont_9to1c4b_863_2_alg».proof.Proof.Gen.KernelIdeal
import proofs.«160663_g89713276879474_cont_9to1c4b_863_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Ops

open Idealize.ShloMosaic Idealize.ShloMosaic.ValueIdx Cert.KernelIdeal Cert.KernelIdeal.Gen

/-! ## The input block against the transposed weights -/

theorem lhsA_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem lhsA_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
theorem rhsA_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
theorem rhsA_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

/-- Row p of the block against column q of the transposed weights: 128 products. -/
theorem matmulA_apply (x : FVec Ideal S512x128 .f32) (w : FVec Ideal S128x64 .f32) (p : Fin 512) (q : Fin 64) :
    matmul dot_S512x128_S128x64_S512x64_1_0_0_1_n_n none x w (constant (F := Ideal) S512x64 .f32 0x00000000#32) (ix2 p q)
      = ∑ k : Fin 128, x (ix2 p k) * w (ix2 k q) := by
  simp only [matmul]
  rw [Ideal.matmul_constant_zero_apply, ← Equiv.sum_comp (contrEquiv1 dot_S512x128_S128x64_S512x64_1_0_0_1_n_n 128 rfl rfl).symm]
  refine Finset.sum_congr rfl fun k _ => ?_
  have hk := contrEquiv1_symm_val dot_S512x128_S128x64_S512x64_1_0_0_1_n_n 128 rfl rfl k
  have el : dot_S512x128_S128x64_S512x64_1_0_0_1_n_n.lhsIdx (ix2 p q) ((contrEquiv1 dot_S512x128_S128x64_S512x64_1_0_0_1_n_n 128 rfl rfl).symm k) = ix2 p k := funext fun a => Fin.ext (by
    match a with
    | ⟨0, _⟩ => exact lhsA_0 _ _
    | ⟨1, _⟩ => exact (lhsA_1 _ _).trans hk)
  have er : dot_S512x128_S128x64_S512x64_1_0_0_1_n_n.rhsIdx (ix2 p q) ((contrEquiv1 dot_S512x128_S128x64_S512x64_1_0_0_1_n_n 128 rfl rfl).symm k) = ix2 k q := funext fun a => Fin.ext (by
    match a with
    | ⟨0, _⟩ => exact (rhsA_0 _ _).trans hk
    | ⟨1, _⟩ => exact rhsA_1 _ _)
  rw [el, er]

/-! ## Hidden rows against memory rows -/

theorem lhsB_0 (i : S512x4096.Idx) (q : dot_S512x64_S4096x64_S512x4096_1_1_0_0_n_n.contr.Idx) :
    (dot_S512x64_S4096x64_S512x4096_1_1_0_0_n_n.lhsIdx i q 0).val = (i 0).val := by
  unfold DotDims.lhsIdx
  rw [dif_neg (show ¬(0 : Fin S512x64.rank) ∈ dot_S512x64_S4096x64_S512x4096_1_1_0_0_n_n.lhsBatch by decide), dif_pos (show (0 : Fin S512x64.rank) ∈ dot_S512x64_S4096x64_S512x4096_1_1_0_0_n_n.lhsNonContracting by decide)]
  rfl
theorem lhsB_1 (i : S512x4096.Idx) (q : dot_S512x64_S4096x64_S512x4096_1_1_0_0_n_n.contr.Idx) :
    (dot_S512x64_S4096x64_S512x4096_1_1_0_0_n_n.lhsIdx i q 1).val = (q ⟨0, by decide⟩).val :=
  dot_S512x64_S4096x64_S512x4096_1_1_0_0_n_n.lhsIdx_val_of_single rfl i q
theorem rhsB_0 (i : S512x4096.Idx) (q : dot_S512x64_S4096x64_S512x4096_1_1_0_0_n_n.contr.Idx) :
    (dot_S512x64_S4096x64_S512x4096_1_1_0_0_n_n.rhsIdx i q 0).val = (i 1).val := by
  unfold DotDims.rhsIdx
  rw [dif_neg (show ¬(0 : Fin S4096x64.rank) ∈ dot_S512x64_S4096x64_S512x4096_1_1_0_0_n_n.rhsBatch by decide), dif_pos (show (0 : Fin S4096x64.rank) ∈ dot_S512x64_S4096x64_S512x4096_1_1_0_0_n_n.rhsNonContracting by decide)]
  rfl
theorem rhsB_1 (i : S512x4096.Idx) (q : dot_S512x64_S4096x64_S512x4096_1_1_0_0_n_n.contr.Idx) :
    (dot_S512x64_S4096x64_S512x4096_1_1_0_0_n_n.rhsIdx i q 1).val = (q ⟨0, by decide⟩).val :=
  dot_S512x64_S4096x64_S512x4096_1_1_0_0_n_n.rhsIdx_val_of_single rfl i q

/-- Hidden row p against memory row r: 64 products, both operands read along their second axis. -/
theorem matmulB_apply (h : FVec Ideal S512x64 .f32) (M : FVec Ideal S4096x64 .f32) (p : Fin 512) (r : Fin 4096) :
    matmul dot_S512x64_S4096x64_S512x4096_1_1_0_0_n_n none h M (constant (F := Ideal) S512x4096 .f32 0x00000000#32) (ix2 p r)
      = ∑ j : Fin 64, h (ix2 p j) * M (ix2 r j) := by
  simp only [matmul]
  rw [Ideal.matmul_constant_zero_apply, ← Equiv.sum_comp (contrEquiv1 dot_S512x64_S4096x64_S512x4096_1_1_0_0_n_n 64 rfl rfl).symm]
  refine Finset.sum_congr rfl fun k _ => ?_
  have hk := contrEquiv1_symm_val dot_S512x64_S4096x64_S512x4096_1_1_0_0_n_n 64 rfl rfl k
  have el : dot_S512x64_S4096x64_S512x4096_1_1_0_0_n_n.lhsIdx (ix2 p r) ((contrEquiv1 dot_S512x64_S4096x64_S512x4096_1_1_0_0_n_n 64 rfl rfl).symm k) = ix2 p k := funext fun a => Fin.ext (by
    match a with
    | ⟨0, _⟩ => exact lhsB_0 _ _
    | ⟨1, _⟩ => exact (lhsB_1 _ _).trans hk)
  have er : dot_S512x64_S4096x64_S512x4096_1_1_0_0_n_n.rhsIdx (ix2 p r) ((contrEquiv1 dot_S512x64_S4096x64_S512x4096_1_1_0_0_n_n 64 rfl rfl).symm k) = ix2 r k := funext fun a => Fin.ext (by
    match a with
    | ⟨0, _⟩ => exact rhsB_0 _ _
    | ⟨1, _⟩ => exact (rhsB_1 _ _).trans hk)
  rw [el, er]

/-! ## Softmax weights against memory columns -/

theorem lhsC_0 (i : S512x64.Idx) (q : dot_S512x4096_S4096x64_S512x64_1_0_0_1_n_n.contr.Idx) :
    (dot_S512x4096_S4096x64_S512x64_1_0_0_1_n_n.lhsIdx i q 0).val = (i 0).val := by
  unfold DotDims.lhsIdx
  rw [dif_neg (show ¬(0 : Fin S512x4096.rank) ∈ dot_S512x4096_S4096x64_S512x64_1_0_0_1_n_n.lhsBatch by decide), dif_pos (show (0 : Fin S512x4096.rank) ∈ dot_S512x4096_S4096x64_S512x64_1_0_0_1_n_n.lhsNonContracting by decide)]
  rfl
theorem lhsC_1 (i : S512x64.Idx) (q : dot_S512x4096_S4096x64_S512x64_1_0_0_1_n_n.contr.Idx) :
    (dot_S512x4096_S4096x64_S512x64_1_0_0_1_n_n.lhsIdx i q 1).val = (q ⟨0, by decide⟩).val :=
  dot_S512x4096_S4096x64_S512x64_1_0_0_1_n_n.lhsIdx_val_of_single rfl i q
theorem rhsC_0 (i : S512x64.Idx) (q : dot_S512x4096_S4096x64_S512x64_1_0_0_1_n_n.contr.Idx) :
    (dot_S512x4096_S4096x64_S512x64_1_0_0_1_n_n.rhsIdx i q 0).val = (q ⟨0, by decide⟩).val :=
  dot_S512x4096_S4096x64_S512x64_1_0_0_1_n_n.rhsIdx_val_of_single rfl i q
theorem rhsC_1 (i : S512x64.Idx) (q : dot_S512x4096_S4096x64_S512x64_1_0_0_1_n_n.contr.Idx) :
    (dot_S512x4096_S4096x64_S512x64_1_0_0_1_n_n.rhsIdx i q 1).val = (i 1).val := by
  unfold DotDims.rhsIdx
  rw [dif_neg (show ¬(1 : Fin S4096x64.rank) ∈ dot_S512x4096_S4096x64_S512x64_1_0_0_1_n_n.rhsBatch by decide), dif_pos (show (1 : Fin S4096x64.rank) ∈ dot_S512x4096_S4096x64_S512x64_1_0_0_1_n_n.rhsNonContracting by decide)]
  rfl

/-- Weight row p against memory column q: 4096 products. -/
theorem matmulC_apply (w : FVec Ideal S512x4096 .f32) (M : FVec Ideal S4096x64 .f32) (p : Fin 512) (q : Fin 64) :
    matmul dot_S512x4096_S4096x64_S512x64_1_0_0_1_n_n none w M (constant (F := Ideal) S512x64 .f32 0x00000000#32) (ix2 p q)
      = ∑ r : Fin 4096, w (ix2 p r) * M (ix2 r q) := by
  simp only [matmul]
  rw [Ideal.matmul_constant_zero_apply, ← Equiv.sum_comp (contrEquiv1 dot_S512x4096_S4096x64_S512x64_1_0_0_1_n_n 4096 rfl rfl).symm]
  refine Finset.sum_congr rfl fun k _ => ?_
  have hk := contrEquiv1_symm_val dot_S512x4096_S4096x64_S512x64_1_0_0_1_n_n 4096 rfl rfl k
  have el : dot_S512x4096_S4096x64_S512x64_1_0_0_1_n_n.lhsIdx (ix2 p q) ((contrEquiv1 dot_S512x4096_S4096x64_S512x64_1_0_0_1_n_n 4096 rfl rfl).symm k) = ix2 p k := funext fun a => Fin.ext (by
    match a with
    | ⟨0, _⟩ => exact lhsC_0 _ _
    | ⟨1, _⟩ => exact (lhsC_1 _ _).trans hk)
  have er : dot_S512x4096_S4096x64_S512x64_1_0_0_1_n_n.rhsIdx (ix2 p q) ((contrEquiv1 dot_S512x4096_S4096x64_S512x64_1_0_0_1_n_n 4096 rfl rfl).symm k) = ix2 k q := funext fun a => Fin.ext (by
    match a with
    | ⟨0, _⟩ => exact (rhsC_0 _ _).trans hk
    | ⟨1, _⟩ => exact rhsC_1 _ _)
  rw [el, er]

/-! ## Row reductions, kept as a column and spread along the row again -/

/-- The sum of row p of a 512 x 64 vector. -/
theorem rowSum64 (v : FVec Ideal S512x64 .f32) (h : S512x64.Reduces [1] S512) (hφ : FKind.Formats .f32)
    (hacc : (0x00000000#32 : BitVec 32) = 0x00000000#32) (p : Fin 512) :
    multiReduction .add [1] S512 v 0x00000000#32 h hφ hacc (ix1 p) = ∑ j : Fin 64, v (ix2 p j) :=
  (Ideal.multiReduction_add_single v 0x00000000#32 h hφ hacc (ix1 p)).trans
    (Finset.sum_congr rfl fun k _ => congrArg v (funext fun a => Fin.ext (by match a with | ⟨0, _⟩ => rfl | ⟨1, _⟩ => rfl)))

/-- The sum of row r of a 4096 x 64 vector. -/
theorem rowSumM (v : FVec Ideal S4096x64 .f32) (h : S4096x64.Reduces [1] S4096) (hφ : FKind.Formats .f32)
    (hacc : (0x00000000#32 : BitVec 32) = 0x00000000#32) (r : Fin 4096) :
    multiReduction .add [1] S4096 v 0x00000000#32 h hφ hacc (ix1 r) = ∑ j : Fin 64, v (ix2 r j) :=
  (Ideal.multiReduction_add_single v 0x00000000#32 h hφ hacc (ix1 r)).trans
    (Finset.sum_congr rfl fun k _ => congrArg v (funext fun a => Fin.ext (by match a with | ⟨0, _⟩ => rfl | ⟨1, _⟩ => rfl)))

/-- The sum of row p of a 512 x 4096 vector. -/
theorem rowSum4096 (v : FVec Ideal S512x4096 .f32) (h : S512x4096.Reduces [1] S512) (hφ : FKind.Formats .f32)
    (hacc : (0x00000000#32 : BitVec 32) = 0x00000000#32) (p : Fin 512) :
    multiReduction .add [1] S512 v 0x00000000#32 h hφ hacc (ix1 p) = ∑ r : Fin 4096, v (ix2 p r) :=
  (Ideal.multiReduction_add_single v 0x00000000#32 h hφ hacc (ix1 p)).trans
    (Finset.sum_congr rfl fun k _ => congrArg v (funext fun a => Fin.ext (by match a with | ⟨0, _⟩ => rfl | ⟨1, _⟩ => rfl)))

/-- The maximum of row p of a 512 x 4096 vector, folded from the word of minus infinity. -/
theorem rowMax4096 (v : FVec Ideal S512x4096 .f32) (h : S512x4096.Reduces [1] S512) (hφ : FKind.Formats .f32)
    (hacc : (0xFF800000#32 : BitVec 32) = 0xFF800000#32) (p : Fin 512) :
    multiReduction .maximumf [1] S512 v 0xFF800000#32 h hφ hacc (ix1 p)
      = (Finset.univ : Finset (Fin 4096)).fold max (Ideal.ofBits .f32 0xFF800000#32) (fun r => v (ix2 p r)) :=
  (Ideal.multiReduction_maximumf_single v 0xFF800000#32 h hφ hacc (ix1 p)).trans
    (congrArg (fun f => (Finset.univ : Finset (Fin 4096)).fold max (Ideal.ofBits .f32 0xFF800000#32) f)
      (funext fun k => congrArg v (funext fun a => Fin.ext (by match a with | ⟨0, _⟩ => rfl | ⟨1, _⟩ => rfl))))

/-- A per-row value of 512 entries, kept as a column and spread across 4096 columns, reads its row's entry. -/
theorem spreadRow (z : FVec Ideal S512 .f32) (hc : S512.ShapeCasts S512x1) (hb : S512x1.Broadcasts S512x4096)
    (p : Fin 512) (r : Fin 4096) :
    broadcastTo S512x4096 (shapeCast S512x1 z hc) hb (ix2 p r) = z (ix1 p) :=
  (LibColumn.broadcastTo_a1_ab_apply _ hb p r).trans (LibColumn.shapeCast_a_a1_apply z hc p 0)

/-- A per-memory-row value of 4096 entries, laid as one row and repeated down 512 rows, reads its column's entry. -/
theorem spreadCol (z : FVec Ideal S4096 .f32) (hc : S4096.ShapeCasts S1x4096) (hb : S1x4096.Broadcasts S512x4096)
    (p : Fin 512) (r : Fin 4096) :
    broadcastTo S512x4096 (shapeCast S1x4096 z hc) hb (ix2 p r) = z (ix1 r) :=
  (broadcastTo_1b_ab_apply _ hb p r).trans (shapeCast_a_1a_apply z hc 0 r)

end Cert.KernelIdeal.Ops

end
-- ==== Proof.KernelValue.lean ====
/-
  What the kernel's body stores, read at one index of its 512-row block.

  The first store holds the hidden rows: row p at column q is the leaky value of row p of the input block against
  weight column q plus the bias. The second store holds the read rows; its value is taken apart into the block of
  similarities (hidden rows against memory rows, divided by the product of the two norms plus the epsilon word),
  the softmax of each of its rows (exponentials of the distance below the row's maximum, divided by their sum), and
  the product of those weights with the memory. Each stage at (p, r) is the row-wise function of the specification.
-/
import proofs.«160663_g89713276879474_cont_9to1c4b_863_2_alg».proof.Proof.Gen.KernelIdeal.Skeleton
import proofs.«160663_g89713276879474_cont_9to1c4b_863_2_alg».proof.Proof.KernelOps
import proofs.«160663_g89713276879474_cont_9to1c4b_863_2_alg».proof.Proof.Spec

noncomputable section

namespace Cert.KernelIdeal.BodyValue

open Idealize.ShloMosaic Idealize.ShloMosaic.ValueIdx Cert.KernelIdeal Cert.KernelIdeal.Gen Cert.KernelIdeal.Ops

/-! ## The hidden rows -/

/-- The pre-activation at (p, q): row p of the block against column q of the transposed weights, plus bias q. -/
theorem pre_apply (x0 : FVec Ideal S512x128 .f32) (wt : FVec Ideal S128x64 .f32) (b2 : FVec Ideal S1x64 .f32) (p : Fin 512) (q : Fin 64) :
    addf (matmul dot_S512x128_S128x64_S512x64_1_0_0_1_n_n none x0 (shapeCast S128x64 wt shapeCasts_S128x64_S128x64) (constant (F := Ideal) S512x64 .f32 0x00000000#32))
        (broadcastTo S512x64 (shapeCast S1x64 b2 shapeCasts_S1x64_S1x64) broadcasts_S1x64_S512x64) (ix2 p q)
      = Cert.ReadHead.lin (fun k => x0 (ix2 p k)) (fun j k => wt (ix2 k j)) (fun j => b2 (ix2 (0 : Fin 1) j)) q := by
  rw [shapeCast_self, shapeCast_self]
  show _ + _ = _
  rw [matmulA_apply, broadcastTo_1b_ab_apply]
  rfl

/-- The first payload at (p, q) is the hidden row of row p of the block, at q. -/
theorem pay1_apply (x0 : FVec Ideal S512x128 .f32) (wt : FVec Ideal S128x64 .f32) (b2 : FVec Ideal S1x64 .f32) (p : Fin 512) (q : Fin 64) :
    k0_pay1 (F := Ideal) x0 wt b2 (ix2 p q)
      = Cert.ReadHead.hid (fun k => x0 (ix2 p k)) (fun j k => wt (ix2 k j)) (fun j => b2 (ix2 (0 : Fin 1) j)) q :=
  congrArg Cert.ReadHead.leaky (pre_apply x0 wt b2 p q)

/-! ## The read rows, stage by stage -/

/-- The similarities of a block of hidden rows with the memory rows, as the body computes them. -/
def simBlk (H : FVec Ideal S512x64 .f32) (M : FVec Ideal S4096x64 .f32) : FVec Ideal S512x4096 .f32 :=
  divf (matmul dot_S512x64_S4096x64_S512x4096_1_1_0_0_n_n none H M (constant (F := Ideal) S512x4096 .f32 0x00000000#32))
    (addf
      (mulf
        (broadcastTo S512x4096 (sqrt (shapeCast S512x1 (multiReduction .add [1] S512 (mulf H H) 0x00000000#32 reduces_S512x64_S512 (.inl rfl) rfl) shapeCasts_S512_S512x1)) broadcasts_S512x1_S512x4096)
        (broadcastTo S512x4096 (shapeCast S1x4096 (sqrt (multiReduction .add [1] S4096 (mulf M M) 0x00000000#32 reduces_S4096x64_S4096 (.inl rfl) rfl)) shapeCasts_S4096_S1x4096) broadcasts_S1x4096_S512x4096))
      (broadcast S512x4096 (Scalar.ofBits (F := Ideal) .f32 0x322BCC77#32)))

/-- The exponentials of a block's entries below their rows' maxima. -/
def expBlk (C : FVec Ideal S512x4096 .f32) : FVec Ideal S512x4096 .f32 :=
  exp (subf C (broadcastTo S512x4096 (shapeCast S512x1 (multiReduction .maximumf [1] S512 C 0xFF800000#32 reduces_S512x4096_S512 (.inl rfl) rfl) shapeCasts_S512_S512x1) broadcasts_S512x1_S512x4096))

/-- The softmax of each row of a block. -/
def softBlk (C : FVec Ideal S512x4096 .f32) : FVec Ideal S512x4096 .f32 :=
  divf (expBlk C) (broadcastTo S512x4096 (shapeCast S512x1 (multiReduction .add [1] S512 (expBlk C) 0x00000000#32 reduces_S512x4096_S512 (.inl rfl) rfl) shapeCasts_S512_S512x1) broadcasts_S512x1_S512x4096)

/-- The second payload is the softmax of the similarities times the memory. -/
theorem pay2_eq (x0 : FVec Ideal S512x128 .f32) (wt : FVec Ideal S128x64 .f32) (M : FVec Ideal S4096x64 .f32) (b2 : FVec Ideal S1x64 .f32) :
    k0_pay2 (F := Ideal) x0 wt M b2
      = matmul dot_S512x4096_S4096x64_S512x64_1_0_0_1_n_n none (softBlk (simBlk (k0_pay1 (F := Ideal) x0 wt b2) M)) M (constant (F := Ideal) S512x64 .f32 0x00000000#32) := rfl

/-- The norm of hidden row p, spread along the row. -/
theorem normH_apply (H : FVec Ideal S512x64 .f32) (p : Fin 512) (r : Fin 4096) :
    broadcastTo S512x4096 (sqrt (shapeCast S512x1 (multiReduction .add [1] S512 (mulf H H) 0x00000000#32 reduces_S512x64_S512 (.inl rfl) rfl) shapeCasts_S512_S512x1)) broadcasts_S512x1_S512x4096 (ix2 p r)
      = Cert.ReadHead.norm (fun j => H (ix2 p j)) := by
  refine (LibColumn.broadcastTo_a1_ab_apply _ broadcasts_S512x1_S512x4096 p r).trans ?_
  show Ideal.sqrt (shapeCast S512x1 (multiReduction .add [1] S512 (mulf H H) 0x00000000#32 reduces_S512x64_S512 (.inl rfl) rfl) shapeCasts_S512_S512x1 (ix2 p (0 : Fin 1))) = _
  rw [LibColumn.shapeCast_a_a1_apply, rowSum64]
  rfl

/-- The norm of memory row r, repeated down the rows. -/
theorem normM_apply (M : FVec Ideal S4096x64 .f32) (p : Fin 512) (r : Fin 4096) :
    broadcastTo S512x4096 (shapeCast S1x4096 (sqrt (multiReduction .add [1] S4096 (mulf M M) 0x00000000#32 reduces_S4096x64_S4096 (.inl rfl) rfl)) shapeCasts_S4096_S1x4096) broadcasts_S1x4096_S512x4096 (ix2 p r)
      = Cert.ReadHead.norm (fun j => M (ix2 r j)) := by
  refine (spreadCol _ shapeCasts_S4096_S1x4096 broadcasts_S1x4096_S512x4096 p r).trans ?_
  show Ideal.sqrt (multiReduction .add [1] S4096 (mulf M M) 0x00000000#32 reduces_S4096x64_S4096 (.inl rfl) rfl (ix1 r)) = _
  rw [rowSumM]
  rfl

/-- The similarity block at (p, r) is the cosine similarity of hidden row p with memory row r. -/
theorem simBlk_apply (H : FVec Ideal S512x64 .f32) (M : FVec Ideal S4096x64 .f32) (p : Fin 512) (r : Fin 4096) :
    simBlk H M (ix2 p r) = Cert.ReadHead.coss (fun j => H (ix2 p j)) (fun r' j => M (ix2 r' j)) r := by
  unfold simBlk Cert.ReadHead.coss
  show Ideal.div (_ : EReal) (_ * _ + Ideal.ofBits .f32 0x322BCC77#32) = _
  rw [matmulB_apply, normH_apply, normM_apply]

/-- The exponential block at (p, r). -/
theorem expBlk_apply (C : FVec Ideal S512x4096 .f32) (p : Fin 512) (r : Fin 4096) :
    expBlk C (ix2 p r) = Cert.ReadHead.ex (fun r' => C (ix2 p r')) r := by
  unfold expBlk Cert.ReadHead.ex Cert.ReadHead.rowMax
  show Ideal.exp (C (ix2 p r) - _) = _
  rw [spreadRow, rowMax4096]

/-- The softmax block at (p, r). -/
theorem softBlk_apply (C : FVec Ideal S512x4096 .f32) (p : Fin 512) (r : Fin 4096) :
    softBlk C (ix2 p r) = Cert.ReadHead.wgt (fun r' => C (ix2 p r')) r := by
  unfold softBlk Cert.ReadHead.wgt
  show Ideal.div (expBlk C (ix2 p r)) _ = _
  rw [spreadRow, rowSum4096, expBlk_apply]
  exact congrArg (Ideal.div _) (Finset.sum_congr rfl fun r' _ => expBlk_apply C p r')

/-- The second payload at (p, q) is the read row of hidden row p, at q. -/
theorem pay2_apply (x0 : FVec Ideal S512x128 .f32) (wt : FVec Ideal S128x64 .f32) (M : FVec Ideal S4096x64 .f32) (b2 : FVec Ideal S1x64 .f32) (p : Fin 512) (q : Fin 64) :
    k0_pay2 (F := Ideal) x0 wt M b2 (ix2 p q)
      = Cert.ReadHead.read (Cert.ReadHead.hid (fun k => x0 (ix2 p k)) (fun j k => wt (ix2 k j)) (fun j => b2 (ix2 (0 : Fin 1) j)))
          (fun r j => M (ix2 r j)) q := by
  rw [pay2_eq, matmulC_apply]
  unfold Cert.ReadHead.read
  refine Finset.sum_congr rfl fun r _ => congrArg (· * M (ix2 r q)) ?_
  rw [softBlk_apply]
  have hrow : (fun r' => simBlk (k0_pay1 (F := Ideal) x0 wt b2) M (ix2 p r'))
      = Cert.ReadHead.coss (Cert.ReadHead.hid (fun k => x0 (ix2 p k)) (fun j k => wt (ix2 k j)) (fun j => b2 (ix2 (0 : Fin 1) j))) (fun r' j => M (ix2 r' j)) := by
    funext r'
    rw [simBlk_apply]
    exact congrArg (fun h => Cert.ReadHead.coss h (fun r'' j => M (ix2 r'' j)) r') (funext fun j => pay1_apply x0 wt b2 p j)
  rw [hrow]

end Cert.KernelIdeal.BodyValue

end
-- ==== Proof.KernelArray.lean ====
/-
  From the blocks to the array.

  Grid point t stages rows 512 t to 512 t + 511 of the input and of the output; the transposed weights, the bias
  row and the memory are staged whole at every point. The two stores of the body tile the output block by column
  halves, so the block is one function of its row and column: the hidden row in columns 0 to 63, the read row in
  columns 64 to 127. Read through the windows, point t therefore writes back block t of the specification's
  whole-array function G of the four argument arrays; the 32 blocks tile the array, so the array ends at G.
-/
import proofs.«160663_g89713276879474_cont_9to1c4b_863_2_alg».proof.Proof.Gen.KernelIdeal.Value
import proofs.«160663_g89713276879474_cont_9to1c4b_863_2_alg».proof.Proof.KernelValue
import proofs.«160663_g89713276879474_cont_9to1c4b_863_2_alg».proof.Proof.Spec
import Idealize.ShloMosaic.Lib.StableHlo.Run
import Idealize.ShloMosaic.Lib.ValueLayout

noncomputable section

namespace Cert.KernelIdeal.ArrayValue

open Idealize.ShloMosaic Idealize.ShloMosaic.TcCoe Idealize.SL.Sem Idealize.ShloMosaic.ValueIdx
open Cert.KernelIdeal Cert.KernelIdeal.Gen Cert.KernelIdeal.Value Cert.KernelIdeal.BodyValue
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The output block as one function of its row and column -/

/-- Row p, column c of the block the body leaves, from the four staged blocks. -/
def blkFn (x0 : FVec Ideal S512x128 .f32) (x1 : FVec Ideal S128x64 .f32) (x2 : FVec Ideal S1x64 .f32) (x3 : FVec Ideal S4096x64 .f32)
    (p : Fin 512) (c : Fin 128) : EReal :=
  Cert.ReadHead.outRow (fun k => x0 (ix2 p k)) (fun j k => x1 (ix2 k j)) (fun j => x2 (ix2 (0 : Fin 1) j)) (fun r j => x3 (ix2 r j)) c

/-- The canon of the body's two stores is that function: the first store's rectangle is columns 0 to 63, the
    second's columns 64 to 127. -/
theorem out_apply (x0 : FVec Ideal S512x128 .f32) (x1 : FVec Ideal S128x64 .f32) (x2 : FVec Ideal S1x64 .f32) (x3 : FVec Ideal S4096x64 .f32)
    (y : S512x128.Idx) :
    out0_4 (F := Ideal) x0 x1 x2 x3 y = blkFn x0 x1 x2 x3 ⟨(y 0).val, idx2_lt0 y⟩ ⟨(y 1).val, idx2_lt1 y⟩ := by
  unfold out0_4
  simp only [View.ld_unit_zero (S := S512x128) hz, View.ld_unit_zero (S := S128x64) hz, View.ld_unit_zero (S := S4096x64) hz,
    View.ld_unit_zero (S := S1x64) hz]
  refine View.canon_apply_of_pieces (Val := Elt Ideal) (e := .f32) (fun y : S512x128.Idx => blkFn x0 x1 x2 x3 ⟨(y 0).val, idx2_lt0 y⟩ ⟨(y 1).val, idx2_lt1 y⟩) _ ?_ y (cover0_4 _ _ y)
  intro pc hpc x
  rcases List.mem_cons.mp hpc with rfl | hpc
  · obtain ⟨p, q, rfl⟩ : ∃ (p : Fin 512) (q : Fin 64), x = ix2 p q := ⟨x 0, x 1, eq_ix2 x⟩
    show k0_pay2 (F := Ideal) x0 x1 x3 x2 (ix2 p q) = blkFn x0 x1 x2 x3 ⟨0 + 1 * p.val, _⟩ ⟨64 + 1 * q.val, _⟩
    rw [pay2_apply]
    unfold blkFn
    rw [Cert.ReadHead.outRow_ge _ _ _ _ _ q (by show 64 + 1 * q.val = 64 + q.val; omega)]
    have hp : (⟨0 + 1 * p.val, by have := p.isLt; omega⟩ : Fin 512) = p := Fin.ext (by show 0 + 1 * p.val = p.val; omega)
    rw [hp]
  · rcases List.mem_cons.mp hpc with rfl | hpc
    · obtain ⟨p, q, rfl⟩ : ∃ (p : Fin 512) (q : Fin 64), x = ix2 p q := ⟨x 0, x 1, eq_ix2 x⟩
      show k0_pay1 (F := Ideal) x0 x1 x2 (ix2 p q) = blkFn x0 x1 x2 x3 ⟨0 + 1 * p.val, _⟩ ⟨0 + 1 * q.val, _⟩
      rw [pay1_apply]
      unfold blkFn
      rw [Cert.ReadHead.outRow_lt _ _ _ _ _ q (by show 0 + 1 * q.val = q.val; omega)]
      have hp : (⟨0 + 1 * p.val, by have := p.isLt; omega⟩ : Fin 512) = p := Fin.ext (by show 0 + 1 * p.val = p.val; omega)
      rw [hp]
    · exact absurd hpc List.not_mem_nil

/-! ## The staged blocks, read off the argument arrays -/

/-- The grid has 32 points. -/
theorem t_lt (t : Fin cfg0.N) : t.val < 32 := lt_of_lt_of_eq t.isLt N_0

/-- The printed index maps, decided over the grid: the input and output windows move one block of rows per
    point, the three resident windows stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The transposed weights the region finds: the host's transpose of the weight argument. -/
theorem V_wt (c : Dev nD) : (V m c main_call0_v0 : S128x64.Idx → EReal)
    = transpose S128x64 [1, 0] (m ((c : Thread nD τ).loc main_arg1)) transposes_S64x128_S128x64_1_0 := by
  dsimp only [Gen.V, Gen.hostOps0]; after_results; rfl

/-- The bias row the region finds: the host's reshape of the bias argument to one row. -/
theorem V_b2 (c : Dev nD) : (V m c main_call0_v1 : S1x64.Idx → EReal)
    = shapeCast S1x64 (m ((c : Thread nD τ).loc main_arg2)) shapeCasts_S64_S1x64 := by
  dsimp only [Gen.V, Gen.hostOps0]; after_results; rfl

/-- Input block t, row p: row 512 t + p of the input argument. -/
theorem blk0_apply (c : Dev nD) (t : Fin cfg0.N) (p : Fin 512) (k : Fin 128) :
    (iblk m c 0 t : FVec Ideal S512x128 .f32) (ix2 p k)
      = (m ((c : Thread nD τ).loc main_arg0) : S16384x128.Idx → EReal) (ix2 (⟨512 * t.val + p.val, by have := t_lt t; have := p.isLt; omega⟩ : Fin 16384) k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 128 + 1 * k.val = k.val; rw [e1]; omega

/-- The staged weights at (k, j): the weight argument at (j, k). -/
theorem blk1_apply (c : Dev nD) (t : Fin cfg0.N) (k : Fin 128) (j : Fin 64) :
    (iblk m c 1 t : FVec Ideal S128x64 .f32) (ix2 k j)
      = (m ((c : Thread nD τ).loc main_arg1) : S64x128.Idx → EReal) (ix2 j k) := by
  obtain ⟨-, -, e0, e1, -⟩ := idx_facts t
  unfold iblk
  rw [View.read_apply]
  show V m c main_call0_v0 _ = _
  rw [V_wt]
  refine Eq.trans ?_ (transpose_ix2_apply _ transposes_S64x128_S128x64_1_0 k j)
  congr 1
  funext a
  apply Fin.ext
  match a with
  | ⟨0, _⟩ => show win0_1.index t (0 : Fin 2) * 128 + 1 * k.val = k.val; rw [e0]; omega
  | ⟨1, _⟩ => show win0_1.index t (1 : Fin 2) * 64 + 1 * j.val = j.val; rw [e1]; omega

/-- The staged bias row at (0, j): the bias argument at j. -/
theorem blk2_apply (c : Dev nD) (t : Fin cfg0.N) (j : Fin 64) :
    (iblk m c 2 t : FVec Ideal S1x64 .f32) (ix2 (0 : Fin 1) j)
      = (m ((c : Thread nD τ).loc main_arg2) : S64.Idx → EReal) (ix1 j) := by
  obtain ⟨-, -, -, -, e0, e1, -⟩ := idx_facts t
  unfold iblk
  rw [View.read_apply]
  show V m c main_call0_v1 _ = _
  rw [V_b2]
  refine Eq.trans ?_ (shapeCast_a_1a_apply _ shapeCasts_S64_S1x64 (0 : Fin 1) j)
  congr 1
  funext a
  apply Fin.ext
  match a with
  | ⟨0, _⟩ => show win0_2.index t (0 : Fin 2) * 1 + 1 * 0 = 0; rw [e0]
  | ⟨1, _⟩ => show win0_2.index t (1 : Fin 2) * 64 + 1 * j.val = j.val; rw [e1]; omega

/-- The staged memory at (r, j): the memory argument there. -/
theorem blk3_apply (c : Dev nD) (t : Fin cfg0.N) (r : Fin 4096) (j : Fin 64) :
    (iblk m c 3 t : FVec Ideal S4096x64 .f32) (ix2 r j)
      = (m ((c : Thread nD τ).loc main_arg3) : S4096x64.Idx → EReal) (ix2 r j) := by
  obtain ⟨-, -, -, -, -, -, e0, e1, -⟩ := idx_facts t
  unfold iblk
  rw [View.read_apply]
  show V m c main_arg3 _ = _
  rw [V_main_arg3]
  congr 1
  funext a
  apply Fin.ext
  match a with
  | ⟨0, _⟩ => show win0_3.index t (0 : Fin 2) * 4096 + 1 * r.val = r.val; rw [e0]; omega
  | ⟨1, _⟩ => show win0_3.index t (1 : Fin 2) * 64 + 1 * j.val = j.val; rw [e1]; omega

/-! ## What each point writes back, and the array after the run -/

/-- The whole-array function of the four arguments as launched. -/
abbrev result (c : Dev nD) : S16384x128.Idx → EReal :=
  Cert.ReadHead.G (m ((c : Thread nD τ).loc main_arg0)) (m ((c : Thread nD τ).loc main_arg1)) (m ((c : Thread nD τ).loc main_arg2))
    (m ((c : Thread nD τ).loc main_arg3))

/-- Point t writes back block t of the whole-array function. -/
theorem flushed_eq (c : Dev nD) (t : Fin cfg0.N) :
    (dats m 0 c).flushed 4 t = ((cfg0.win 4).blk t).view.read (Elt Ideal) (result m c) := by
  obtain ⟨-, -, -, -, -, -, -, -, e0, e1⟩ := idx_facts t
  show (cfg0.win 4).cut (grid0.coords t) ((dats m 0 c).after 4 t) = _
  rw [after0_4]
  funext y
  obtain ⟨p, q, rfl⟩ : ∃ (p : Fin 512) (q : Fin 128), y = ix2 p q := ⟨y 0, y 1, eq_ix2 y⟩
  show out0_4 (F := Ideal) (iblk m c 0 t) (iblk m c 1 t) (iblk m c 2 t) (iblk m c 3 t) (ix2 p q) = result m c (((cfg0.win 4).blk t).view.emb (ix2 p q))
  rw [out_apply]
  unfold blkFn result Cert.ReadHead.G
  have hrow : (⟨((((cfg0.win 4).blk t).view.emb (ix2 p q)) 0).val, idx2_lt0 _⟩ : Fin 16384) = ⟨512 * t.val + p.val, by have := t_lt t; have := p.isLt; omega⟩ :=
    Fin.ext (by show win0_4.index t (0 : Fin 2) * 512 + 1 * p.val = 512 * t.val + p.val; rw [e0]; omega)
  have hcol : (⟨((((cfg0.win 4).blk t).view.emb (ix2 p q)) 1).val, idx2_lt1 _⟩ : Fin 128) = q :=
    Fin.ext (by show win0_4.index t (1 : Fin 2) * 128 + 1 * q.val = q.val; rw [e1]; omega)
  rw [hrow, hcol]
  have hp : (⟨(ix2 p q (0 : Fin 2)).val, idx2_lt0 (ix2 p q)⟩ : Fin 512) = p := rfl
  have hq : (⟨(ix2 p q (1 : Fin 2)).val, idx2_lt1 (ix2 p q)⟩ : Fin 128) = q := rfl
  rw [hp, hq]
  have h0 : (fun k => (iblk m c 0 t : FVec Ideal S512x128 .f32) (ix2 p k))
      = fun k => (m ((c : Thread nD τ).loc main_arg0) : S16384x128.Idx → EReal) (ix2 (⟨512 * t.val + p.val, by have := t_lt t; have := p.isLt; omega⟩ : Fin 16384) k) :=
    funext fun k => blk0_apply m c t p k
  have h1 : (fun j k => (iblk m c 1 t : FVec Ideal S128x64 .f32) (ix2 k j))
      = fun j k => (m ((c : Thread nD τ).loc main_arg1) : S64x128.Idx → EReal) (ix2 j k) :=
    funext fun j => funext fun k => blk1_apply m c t k j
  have h2 : (fun j => (iblk m c 2 t : FVec Ideal S1x64 .f32) (ix2 (0 : Fin 1) j))
      = fun j => (m ((c : Thread nD τ).loc main_arg2) : S64.Idx → EReal) (ix1 j) :=
    funext fun j => blk2_apply m c t j
  have h3 : (fun r j => (iblk m c 3 t : FVec Ideal S4096x64 .f32) (ix2 r j))
      = fun r j => (m ((c : Thread nD τ).loc main_arg3) : S4096x64.Idx → EReal) (ix2 r j) :=
    funext fun r => funext fun j => blk3_apply m c t r j
  rw [h0, h1, h2, h3]

/-- An index of the array is in point t's block iff each coordinate is in the block's range on its axis. -/
theorem mem_blk (t : Fin cfg0.N) (i : S16384x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v0).slice (win0_4.rect t)).set ↔ _
  rw [View.set_slice_whole, Rect.mem_set_unit]
  exact Iff.rfl

/-- Every block index 0 to 31 is some point's. -/
theorem idx_onto : ∀ q0 : Fin 32, ∃ t : Fin cfg0.N, win0_4.index t = ![q0.val, 0] :=
  (by decide +kernel : ∀ q0 : Fin 32, ∃ t : Fin grid0.N, win0_4.index t = ![q0.val, 0])

/-- The 32 blocks tile the array: row i lies in the block of point i / 512. -/
theorem cover (i : S16384x128.Idx) : ∃ t : Fin cfg0.N, (cfg0.win 4).flush t = true ∧ i ∈ ((cfg0.win 4).blk t).view.set := by
  have hi0 : (i 0).val < 16384 := (i 0).isLt
  have hi1 : (i 1).val < 128 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 128 ≤ (i 1).val ∧ (i 1).val < win0_4.index t (1 : Fin 2) * 128 + 128; omega

/-- The output array after the run is the whole-array function of the arguments. -/
theorem final (c : Dev nD) : (dats m 0 c).arrAt 4 cfg0.N = result m c :=
  (dats m 0 c).arrAt_eq_of_cover 4 (result m c) (fun t _ => flushed_eq m c t) cover

/-- The kernel's run, with its result named: the whole-array function of the arguments, which end unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.ArrayValue

end
-- ==== Proof.lean ====
/-
  A memory read head, blocked over rows, against its whole-array reference.

  Both programs compute, for each of the 16384 input rows x, the hidden row h = leaky (x · Wᵀ + b) of 64 entries, the
  cosine similarity of h with each of the 4096 memory rows (inner product over the product of the two norms plus an
  epsilon), the softmax of those similarities taken from their maximum, and the memory rows weighted by that softmax;
  the result row is h followed by the weighted sum. The kernel does this 512 rows at a time with the weights, the bias
  and the memory resident; the reference does it on whole arrays, with the product of the norms written as a matrix
  product over an axis of extent one and a further maximum with minus infinity that changes nothing. Over the extended
  reals every step is the same function of the same entries, literal for literal, so no finiteness of the inputs is
  used: each program's result array is the one function G of the four argument arrays (Spec.lean), index by index.
  The idealization rewrote nothing, so its conjunct is trivial.
-/
import proofs.«160663_g89713276879474_cont_9to1c4b_863_2_alg».proof.Defs
import proofs.«160663_g89713276879474_cont_9to1c4b_863_2_alg».proof.Proof.Gen.Kernel
import proofs.«160663_g89713276879474_cont_9to1c4b_863_2_alg».proof.Proof.Gen.Kernel.Skeleton
import proofs.«160663_g89713276879474_cont_9to1c4b_863_2_alg».proof.Proof.Gen.Kernel.Launch
import proofs.«160663_g89713276879474_cont_9to1c4b_863_2_alg».proof.Proof.Gen.Kernel.Points
import proofs.«160663_g89713276879474_cont_9to1c4b_863_2_alg».proof.Proof.Gen.Kernel.Frame
import proofs.«160663_g89713276879474_cont_9to1c4b_863_2_alg».proof.Proof.Gen.KernelIdeal
import proofs.«160663_g89713276879474_cont_9to1c4b_863_2_alg».proof.Proof.Gen.KernelIdeal.Skeleton
import proofs.«160663_g89713276879474_cont_9to1c4b_863_2_alg».proof.Proof.Gen.KernelIdeal.Launch
import proofs.«160663_g89713276879474_cont_9to1c4b_863_2_alg».proof.Proof.Gen.KernelIdeal.Points
import proofs.«160663_g89713276879474_cont_9to1c4b_863_2_alg».proof.Proof.Gen.KernelIdeal.Frame
import proofs.«160663_g89713276879474_cont_9to1c4b_863_2_alg».proof.Proof.Gen.ReferenceIdeal
import proofs.«160663_g89713276879474_cont_9to1c4b_863_2_alg».proof.Proof.Gen.Pre_finite_inputs
import proofs.«160663_g89713276879474_cont_9to1c4b_863_2_alg».proof.Proof.Gen.KernelIdeal.Value
import proofs.«160663_g89713276879474_cont_9to1c4b_863_2_alg».proof.Proof.RefRun
import proofs.«160663_g89713276879474_cont_9to1c4b_863_2_alg».proof.Proof.RefRead
import proofs.«160663_g89713276879474_cont_9to1c4b_863_2_alg».proof.Proof.RefValue
import proofs.«160663_g89713276879474_cont_9to1c4b_863_2_alg».proof.Proof.KernelArray
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- From memories agreeing on the four arguments both programs end with the result array at G of those arguments:
    the kernel block by block, the reference operation by operation. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v37_eq, Cert.ReferenceIdeal.RefValue.result_ref,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
